-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Distance.lean ====
/-
  The Euclidean distance matrix of two sets of 8192 points in 256 coordinates, on the extended reals, as ONE function
  of the two arrays, entry by entry, through the expansion |a - b|² = |a|² + |b|² - 2 a·b:

    dist x y (n, m) = √ max ((|x n|² + |y m|²) - 2 · ⟨x n, y m⟩) 0

  where |x n|² is the sum over the 256 coordinates of the squares of point n, added onto the zero the sum starts from,
  and ⟨x n, y m⟩ the sum of the products of the two points' coordinates. The grouping (the two squared norms added
  first, twice the inner product subtracted from that) is kept as written: nothing here rearranges a sum or uses
  a law that fails at an infinity, so no entry needs to be finite.
  The constants 2 and 0 stay the words they are printed as; the same words stand on both sides of the claim.
-/
import Idealize.ShloMosaic.PureOps.Ideal
import Idealize.ShloMosaic.Lib.ValueIdx

noncomputable section

namespace Cert.PairDist

open Idealize.ShloMosaic Idealize.ShloMosaic.ValueIdx

/-- 8192 points, 256 coordinates each. -/
abbrev Pts : Type := (⟨2, ![8192, 256]⟩ : Shape).Idx → EReal
/-- A matrix with one entry per pair of points. -/
abbrev PairIdx : Type := (⟨2, ![8192, 8192]⟩ : Shape).Idx

/-- The word both programs print for 0 and the one they print for 2, read on the extended reals. -/
abbrev zeroW : EReal := Ideal.ofBits .f32 0x00000000#32
abbrev twoW : EReal := Ideal.ofBits .f32 0x40000000#32

/-- The squared norm of point `n`: zero plus the sum of the squares of its coordinates. -/
def sqNorm (x : Pts) (n : Fin 8192) : EReal := zeroW + ∑ k : Fin 256, x (ix2 n k) * x (ix2 n k)

/-- The inner product of point `n` of `x` with point `m` of `y`. -/
def inner (x y : Pts) (n m : Fin 8192) : EReal := ∑ k : Fin 256, x (ix2 n k) * y (ix2 m k)

/-- The distance matrix. -/
def dist (x y : Pts) : PairIdx → EReal := fun i =>
  Ideal.sqrt (max ((sqNorm x (i 0) + sqNorm y (i 1)) - twoW * inner x y (i 0) (i 1)) zeroW)

/-- An entry put together from its parts: whatever two numbers are the two squared norms and whatever two families are
    the two points' coordinates, the expression over them is the distance matrix's entry. Both programs reach their
    entries in this form, each from its own way of holding the parts. -/
theorem dist_of_parts (x y : Pts) (i : PairIdx) (s t : EReal) (f g : Fin 256 → EReal)
    (hs : s = sqNorm x (i 0)) (ht : t = sqNorm y (i 1))
    (hf : ∀ k, f k = x (ix2 (i 0) k)) (hg : ∀ k, g k = y (ix2 (i 1) k)) :
    Ideal.sqrt (max ((s + t) - twoW * ∑ k : Fin 256, f k * g k) zeroW) = dist x y i := by
  subst hs ht
  unfold dist inner
  rw [Finset.sum_congr rfl fun k _ => by rw [hf k, hg k]]

end Cert.PairDist

end
-- ==== Proof.RefDist.lean ====
/-
  The reference computes the distance matrix.  Its last stage, read at an entry (n, m) one operation at a time, is
  √ max ((s₁ + s₂) - 2 · c) 0 with s₁ the host's sum of squares of row n of the first array (kept as a column, spread
  over the row), s₂ the same for row m of the second array (kept as a column, turned into a row, spread down the
  column) and c the host's product of the two arrays contracted over the coordinate axis: the squared norms of the
  two points and their inner product.  The composed index maps of those layout steps are the plain coordinates
  (n, k) and (m, k); with them named, the stage at (n, m) is the specification's entry term for term.
-/
import proofs.«118148_j20658792694341_1_alg».proof.Proof.Gen.ReferenceIdeal.Read
import proofs.«118148_j20658792694341_1_alg».proof.Proof.Distance

noncomputable section

namespace Cert.ReferenceIdeal.RefValue

open Cert.ReferenceIdeal Cert.ReferenceIdeal.Read Idealize.ShloMosaic Idealize.ShloMosaic.ValueIdx Cert.PairDist

/-- The first squared norm at entry (n, m) sums row n: column → spread over the row → the sum's operand index. -/
theorem row_of_first (i : S8192x8192.Idx) (k : Fin 256) : idx_main_v1 (idx_main_v2 (idx_main_v8 i)) k = ix2 (i 0) k :=
  funext fun a => Fin.ext (by match a with | ⟨0, _⟩ => rfl | ⟨1, _⟩ => rfl)

/-- The second squared norm at entry (n, m) sums row m: column → transposed → spread down the column → the sum's operand index. -/
theorem row_of_second (i : S8192x8192.Idx) (k : Fin 256) :
    idx_main_v4 (idx_main_v5 (idx_main_v7 (idx_main_v9 i))) k = ix2 (i 1) k :=
  funext fun a => Fin.ext (by match a with | ⟨0, _⟩ => rfl | ⟨1, _⟩ => rfl)

/-- The contraction's left operand at entry (n, m) and coordinate k is (n, k), -/
theorem left_of_inner (i : S8192x8192.Idx) (k : Fin 256) : lidx_main_v6 i k = ix2 (i 0) k :=
  funext fun a => Fin.ext (by match a with | ⟨0, _⟩ => rfl | ⟨1, _⟩ => rfl)

/-- and its right operand is (m, k). -/
theorem right_of_inner (i : S8192x8192.Idx) (k : Fin 256) : ridx_main_v6 i k = ix2 (i 1) k :=
  funext fun a => Fin.ext (by match a with | ⟨0, _⟩ => rfl | ⟨1, _⟩ => rfl)

/-- The reference's result is the distance matrix of its two arguments. -/
theorem result_eq (x0 x1 : (⟨S8192x256, .f32⟩ : BufTy).Contents (Elt Ideal)) :
    val_main_v16 (F := Ideal) x0 x1 = dist x0 x1 := by
  funext i
  rw [val_main_v16_apply, val_main_v15_apply, val_main_v13_apply, val_main_v10_apply, val_main_v12_apply,
    val_main_v6_apply, val_main_v8_apply, val_main_v2_apply, val_main_v1_apply, val_main_v9_apply, val_main_v7_apply,
    val_main_v5_apply, val_main_v4_apply, val_main_v11_apply, val_main_v14_apply]
  simp only [val_main_v0_apply, val_main_v3_apply, val_main_cst_apply, val_main_cst_0_apply, val_main_cst_1_apply,
    val_main_cst_2_apply, row_of_first, row_of_second, left_of_inner, right_of_inner]
  exact dist_of_parts x0 x1 i _ _ (fun k => x0 (ix2 (i 0) k)) (fun k => x1 (ix2 (i 1) k)) rfl rfl (fun _ => rfl) (fun _ => rfl)

end Cert.ReferenceIdeal.RefValue

end
-- ==== Proof.Payload.lean ====
/-
  What one grid point computes.  The body's one stored value, as a function of the four blocks it loads — 1024 points of
  each array (a, b : [1024, 256]), the first block's squared norms as a column (u : [1024, 1]) and the second's as a
  row (w : [1, 1024]) — is, at entry (p, q) of the [1024, 1024] tile,

    √ max ((u p + w q) - 2 · ∑ₖ a (p, k) · b (q, k)) 0.

  The column is spread along the row and the row down the column; the narrowing of the blocks to a shorter float
  format before the product changes no value on the extended reals; the product contracts the coordinate axis of both
  operands into an accumulator of zeros, so its entry is the bare sum of products.
-/
import proofs.«118148_j20658792694341_1_alg».proof.Proof.Gen.KernelIdeal.Skeleton
import proofs.«118148_j20658792694341_1_alg».proof.Proof.Distance
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.PairDist

/-! ## The product's operand indices: output (p, q), contraction coordinate k ↦ (p, k) and (q, k) -/

theorem lhs_axis0 (i : S1024x1024.Idx) (r : dot_S1024x256_S1024x256_S1024x1024_1_1_0_0_n_n.contr.Idx) :
    (dot_S1024x256_S1024x256_S1024x1024_1_1_0_0_n_n.lhsIdx i r 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_axis1 (i : S1024x1024.Idx) (r : dot_S1024x256_S1024x256_S1024x1024_1_1_0_0_n_n.contr.Idx) :
    (dot_S1024x256_S1024x256_S1024x1024_1_1_0_0_n_n.lhsIdx i r 1).val = (r ⟨0, by decide⟩).val :=
  dot_S1024x256_S1024x256_S1024x1024_1_1_0_0_n_n.lhsIdx_val_of_single rfl i r
theorem rhs_axis0 (i : S1024x1024.Idx) (r : dot_S1024x256_S1024x256_S1024x1024_1_1_0_0_n_n.contr.Idx) :
    (dot_S1024x256_S1024x256_S1024x1024_1_1_0_0_n_n.rhsIdx i r 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_axis1 (i : S1024x1024.Idx) (r : dot_S1024x256_S1024x256_S1024x1024_1_1_0_0_n_n.contr.Idx) :
    (dot_S1024x256_S1024x256_S1024x1024_1_1_0_0_n_n.rhsIdx i r 1).val = (r ⟨0, by decide⟩).val :=
  dot_S1024x256_S1024x256_S1024x1024_1_1_0_0_n_n.rhsIdx_val_of_single rfl i r

/-- The tile's product at (p, q): the sum over the 256 coordinates of a (p, k) · b (q, k). -/
theorem cross_apply (a b : FVec Ideal S1024x256 .f32) (p q : Fin 1024) :
    matmul (F := Ideal) dot_S1024x256_S1024x256_S1024x1024_1_1_0_0_n_n none (truncf .bf16 a bitsLt_bf16_f32) (truncf .bf16 b bitsLt_bf16_f32)
        (constant S1024x1024 .f32 0x00000000#32) (ix2 p q)
      = ∑ k : Fin 256, a (ix2 p k) * b (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun ax => Fin.ext (by
    match ax with
    | ⟨0, _⟩ => exact lhs_axis0 _ _
    | ⟨1, _⟩ => exact (lhs_axis1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun ax => Fin.ext (by
    match ax with
    | ⟨0, _⟩ => exact rhs_axis0 _ _
    | ⟨1, _⟩ => exact (rhs_axis1 _ _).trans hk)
  rw [el, er]
  rfl

/-- A [1024, 1] column spread to [1024, 1024] reads, at (p, q), the column at p. -/
theorem column_spread (v : (⟨2, ![1024, 1]⟩ : Shape).Idx → EReal)
    (h : (⟨2, ![1024, 1]⟩ : Shape).Broadcasts ⟨2, ![1024, 1024]⟩) (p q : Fin 1024) :
    broadcastTo ⟨2, ![1024, 1024]⟩ v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ =>
    show 0 = if (1 : Nat) = 1 then 0 else q.val
    rw [if_pos rfl]

/-- The stored value at entry (p, q) of the tile. -/
theorem entry (a b : Vec Ideal S1024x256 .f32) (u : Vec Ideal S1024x1 .f32) (w : Vec Ideal S1x1024 .f32) (p q : Fin 1024) :
    k0_pay1 (F := Ideal) a b u w (ix2 p q)
      = Ideal.sqrt (max ((u (ix2 p (0 : Fin 1)) + w (ix2 (0 : Fin 1) q)) - twoW * ∑ k : Fin 256, a (ix2 p k) * b (ix2 q k)) zeroW) := by
  have e1 : broadcastTo S1024x1024 (shapeCast S1024x1 u shapeCasts_S1024x1_S1024x1) broadcasts_S1024x1_S1024x1024 (ix2 p q) = u (ix2 p (0 : Fin 1)) := by
    rw [shapeCast_self]; exact column_spread u _ p q
  have e2 : broadcastTo S1024x1024 (shapeCast S1x1024 w shapeCasts_S1x1024_S1x1024) broadcasts_S1x1024_S1024x1024 (ix2 p q) = w (ix2 (0 : Fin 1) q) := by
    rw [shapeCast_self]; exact broadcastTo_1b_ab_apply w _ p q
  unfold k0_pay1
  show Ideal.sqrt (max ((broadcastTo S1024x1024 (shapeCast S1024x1 u shapeCasts_S1024x1_S1024x1) broadcasts_S1024x1_S1024x1024 (ix2 p q)
      + broadcastTo S1024x1024 (shapeCast S1x1024 w shapeCasts_S1x1024_S1x1024) broadcasts_S1x1024_S1024x1024 (ix2 p q))
      - twoW * matmul (F := Ideal) dot_S1024x256_S1024x256_S1024x1024_1_1_0_0_n_n none (truncf .bf16 a bitsLt_bf16_f32) (truncf .bf16 b bitsLt_bf16_f32)
        (constant S1024x1024 .f32 0x00000000#32) (ix2 p q)) zeroW) = _
  rw [e1, e2, cross_apply]

end Cert.KernelIdeal.Tile

end
-- ==== Proof.Norms.lean ====
/-
  The squared norms the kernel is handed.  Before the region, the host sums the squares of each row of both arrays;
  the first array's sums are kept as a column [8192, 1], the second's as a column turned into a row [1, 8192].
  Read at an index, entry (n, 0) of the column is the squared norm of point n of the first array and entry (0, m) of
  the row the squared norm of point m of the second: the host's sum over one axis is the zero it starts from plus the
  sum over that axis's coordinates.
-/
import proofs.«118148_j20658792694341_1_alg».proof.Proof.Gen.KernelIdeal.Frame
import proofs.«118148_j20658792694341_1_alg».proof.Proof.Distance
import Idealize.ShloMosaic.Lib.StableHlo.Run
import Idealize.ShloMosaic.Lib.Pipeline.Value
import Idealize.ShloMosaic.PureOps.Ideal.Laws

noncomputable section

namespace Cert.KernelIdeal.Norms

open Cert.KernelIdeal Cert.KernelIdeal.Gen Idealize.ShloMosaic Idealize.ShloMosaic.TcCoe Idealize.SL.Sem
open Idealize.ShloMosaic.ValueIdx Idealize.ShloMosaic.StableHlo Cert.PairDist

/-- The host's row sums of squares of an array, at row `n`: that point's squared norm. -/
theorem rowSq_apply (x : FVec Ideal S8192x256 .f32) (j : S8192.Idx) :
    Host.reduceAdd (F := Ideal) (mulf x x) (constant S_ .f32 0x00000000#32) reducesTo_S8192x256_S8192_d1 h_S_ j
      = sqNorm x (j 0) := by
  generalize hy : (mulf x x : FVec Ideal S8192x256 .f32) = y
  simp only [Host.reduceAdd, Ideal.hostReduceAdd_def]
  rw [Ideal.hostReduceAdd_single reducesTo_S8192x256_S8192_d1 (by decide)]
  subst hy
  unfold sqNorm
  refine congrArg (_ + ·) (Finset.sum_congr rfl fun k _ => ?_)
  exact congrArg (fun i => x i * x i) (funext fun a => Fin.ext (by match a with | ⟨0, _⟩ => rfl | ⟨1, _⟩ => rfl))

variable (m : (ℓ : Loc nD τ sig) → Buf (Elt Ideal) ℓ)

/-- The column the region finds: at (n, 0), the squared norm of point n of the first argument. -/
theorem column_apply (c : Dev nD) (j : S8192x1.Idx) :
    (V m c main_v2 : S8192x1.Idx → EReal) j = sqNorm (m ((c : Thread nD τ).loc main_arg0)) (j 0) := by
  have e : (V m c main_v2 : S8192x1.Idx → EReal)
      = broadcastInDim S8192x1 ![0] bcast_S8192_S8192x1_0
          (Host.reduceAdd (F := Ideal) (mulf (m (c, Proc.tc.devRef main_arg0)) (m (c, Proc.tc.devRef main_arg0)))
            (constant S_ .f32 0x00000000#32) reducesTo_S8192x256_S8192_d1 h_S_) := by
    dsimp only [Gen.V, Gen.hostOps0]; after_results
  refine (congrFun e j).trans ?_
  refine (broadcastInDim_apply _ bcast_S8192_S8192x1_0 _ j (ix1 (j 0)) (fun a => match a with
    | ⟨0, _⟩ => by show (j 0).val = if (8192 : Nat) = 1 then 0 else (j 0).val; rw [if_neg (by decide)])).trans ?_
  exact rowSq_apply _ (ix1 (j 0))

/-- The row the region finds: at (0, m), the squared norm of point m of the second argument. -/
theorem row_apply (c : Dev nD) (j : S1x8192.Idx) :
    (V m c main_v6 : S1x8192.Idx → EReal) j = sqNorm (m ((c : Thread nD τ).loc main_arg1)) (j 1) := by
  have e : (V m c main_v6 : S1x8192.Idx → EReal)
      = transpose S1x8192 [1, 0] (broadcastInDim S8192x1 ![0] bcast_S8192_S8192x1_0
          (Host.reduceAdd (F := Ideal) (mulf (m (c, Proc.tc.devRef main_arg1)) (m (c, Proc.tc.devRef main_arg1)))
            (constant S_ .f32 0x00000000#32) reducesTo_S8192x256_S8192_d1 h_S_)) transposes_S8192x1_S1x8192_1_0 := by
    dsimp only [Gen.V, Gen.hostOps0]; after_results
  refine (congrFun e j).trans ?_
  refine (transpose_apply [1, 0] _ transposes_S8192x1_S1x8192_1_0 j (ix2 (j 1) (j 0)) (fun b => match b with
    | ⟨0, _⟩ => rfl
    | ⟨1, _⟩ => rfl)).trans ?_
  refine (broadcastInDim_apply _ bcast_S8192_S8192x1_0 _ (ix2 (j 1) (j 0)) (ix1 (j 1)) (fun a => match a with
    | ⟨0, _⟩ => by show (j 1).val = if (8192 : Nat) = 1 then 0 else (j 1).val; rw [if_neg (by decide)])).trans ?_
  exact rowSq_apply _ (ix1 (j 1))

end Cert.KernelIdeal.Norms

end
-- ==== Proof.Whole.lean ====
/-
  From tiles to the matrix.  The grid is 8 × 8; point (i, j) loads points 1024 i … 1024 i + 1023 of the first array
  (and their squared norms), points 1024 j … 1024 j + 1023 of the second (and theirs), and writes tile (i, j) of the
  [8192, 8192] result.  Entry (p, q) of that tile is entry (1024 i + p, 1024 j + q) of the result, and the four
  blocks read at (p, ·) and (q, ·) are the arrays read at (1024 i + p, ·) and (1024 j + q, ·): so what point (i, j)
  writes back is tile (i, j) of the distance matrix of the two arguments.  The 64 tiles cover the result — entry
  (r, s) lies in tile (r / 1024, s / 1024) — so after the run the result array IS the distance matrix.
-/
import proofs.«118148_j20658792694341_1_alg».proof.Proof.Gen.KernelIdeal.Value
import proofs.«118148_j20658792694341_1_alg».proof.Proof.Distance
import proofs.«118148_j20658792694341_1_alg».proof.Proof.Payload
import proofs.«118148_j20658792694341_1_alg».proof.Proof.Norms
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.PairDist
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices at a grid point, decided over the 64 points: the first array's block and its column of norms
    move with the tile's row index, the second array's block and its row of norms with the tile's column index, and
    neither has a second block along its other axis. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) < 8 ∧ win0_4.index t (1 : Fin 2) < 8 :=
  (by decide +kernel : ∀ t : Fin grid0.N, _)

/-- Every tile is some point's. -/
theorem tile_of_point : ∀ (i j : Fin 8), ∃ t : Fin cfg0.N, win0_4.index t = ![i.val, j.val] :=
  (by decide +kernel : ∀ (i j : Fin 8), ∃ t : Fin grid0.N, win0_4.index t = ![i.val, j.val])

/-- What point `t` writes back is its tile of the distance matrix of the two arguments. -/
theorem flushed_eq (c : Dev nD) (t : Fin cfg0.N) :
    (dats m 0 c).flushed 4 t
      = ((cfg0.win 4).blk t).view.read (Elt Ideal) (dist (m ((c : Thread nD τ).loc main_arg0)) (m ((c : Thread nD τ).loc main_arg1))) := by
  rw [Value.flushed4]
  unfold out0_4
  rw [View.canon_unit_zero origin]
  simp only [View.ld_unit_zero (S := S1024x256) origin, View.ld_unit_zero (S := S1024x1) origin, View.ld_unit_zero (S := S1x1024) origin]
  obtain ⟨e00, e01, e10, e11, e20, e21, e30, e31, b0, b1⟩ := block_indices t
  funext y
  obtain ⟨p, q, rfl⟩ : ∃ (p q : Fin 1024), y = (ix2 p q : S1024x1024.Idx) := ⟨y 0, y 1, eq_ix2 (n0 := 1024) (n1 := 1024) y⟩
  show k0_pay1 (F := Ideal) (iblk m c 0 t) (iblk m c 1 t) (iblk m c 2 t) (iblk m c 3 t) (ix2 p q)
    = dist (m ((c : Thread nD τ).loc main_arg0)) (m ((c : Thread nD τ).loc main_arg1)) (((cfg0.win 4).blk t).view.emb (ix2 p q))
  refine (Tile.entry (iblk m c 0 t) (iblk m c 1 t) (iblk m c 2 t) (iblk m c 3 t) p q).trans ?_
  refine dist_of_parts _ _ _ _ _ _ _ ?_ ?_ (fun k => ?_) (fun k => ?_)
  · -- the column block at (p, 0) is the column at (1024 i + p, 0): the squared norm of that point of the first array
    show V m c main_v2 (((cfg0.win 2).blk t).view.emb (ix2 p (0 : Fin 1))) = _
    refine (Norms.column_apply m c _).trans (congrArg (sqNorm _) (Fin.ext ?_))
    show win0_2.index t (0 : Fin 2) * 1024 + 1 * p.val = win0_4.index t (0 : Fin 2) * 1024 + 1 * p.val
    omega
  · -- the row block at (0, q) is the row at (0, 1024 j + q): the squared norm of that point of the second array
    show V m c main_v6 (((cfg0.win 3).blk t).view.emb (ix2 (0 : Fin 1) q)) = _
    refine (Norms.row_apply m c _).trans (congrArg (sqNorm _) (Fin.ext ?_))
    show win0_3.index t (1 : Fin 2) * 1024 + 1 * q.val = win0_4.index t (1 : Fin 2) * 1024 + 1 * q.val
    omega
  · -- the first array's block at (p, k) is the array at (1024 i + p, k)
    show V m c main_arg0 (((cfg0.win 0).blk t).view.emb (ix2 p k)) = _
    refine (congrFun (V_main_arg0 m c) _).trans (congrArg _ (funext fun a => Fin.ext ?_))
    match a with
    | ⟨0, _⟩ => show win0_0.index t (0 : Fin 2) * 1024 + 1 * p.val = win0_4.index t (0 : Fin 2) * 1024 + 1 * p.val; omega
    | ⟨1, _⟩ => show win0_0.index t (1 : Fin 2) * 256 + 1 * k.val = k.val; omega
  · -- the second array's block at (q, k) is the array at (1024 j + q, k)
    show V m c main_arg1 (((cfg0.win 1).blk t).view.emb (ix2 q k)) = _
    refine (congrFun (V_main_arg1 m c) _).trans (congrArg _ (funext fun a => Fin.ext ?_))
    match a with
    | ⟨0, _⟩ => show win0_1.index t (0 : Fin 2) * 1024 + 1 * q.val = win0_4.index t (1 : Fin 2) * 1024 + 1 * q.val; omega
    | ⟨1, _⟩ => show win0_1.index t (1 : Fin 2) * 256 + 1 * k.val = k.val; omega

/-- An entry of the result lies in point `t`'s tile iff each of its coordinates lies in the tile's range on that axis. -/
theorem mem_tile (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- Every entry (r, s) of the result lies in a tile that is written back: tile (r / 1024, s / 1024). -/
theorem covered (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := tile_of_point ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- After the run the result array is the distance matrix of the two arguments. -/
theorem final (c : Dev nD) :
    (dats m 0 c).arrAt 4 cfg0.N = dist (m ((c : Thread nD τ).loc main_arg0)) (m ((c : Thread nD τ).loc main_arg1)) :=
  (dats m 0 c).arrAt_eq_of_cover 4 _ (fun t _ => flushed_eq m c t) covered

/-- The kernel's run, read: every weakly fair execution ends with the result at the distance matrix of the arguments
    and the arguments unchanged. -/
theorem run : θ_run defs (onTc (τ := τ) (main (F := Ideal))) ⟨m, fun _ => 0, ρ⟩ fun r => ∀ c : Dev nD,
      r.2.mem ((c : Thread nD τ).loc main_v7) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  Pairwise Euclidean distances of two sets of 8192 points in 256 coordinates, by the expansion
  |a - b|² = |a|² + |b|² - 2 a·b: entry (n, m) of the result is √ max ((|x n|² + |y m|²) - 2 ⟨x n, y m⟩) 0.

  The kernel has the host sum each point's squares (a column for the first array, a row for the second) and then, on an
  8 × 8 grid of [1024, 1024] tiles, forms the inner products of 1024 points of one array with 1024 of the other as one
  matrix product over blocks narrowed to a shorter float format, and combines them with the two norms.  The reference
  does the same on whole arrays with one product contracted over the coordinate axis.  On the extended reals the
  narrowing is the identity and a product into zeros is the bare sum of products, so the two programs compute, entry by
  entry, the same expression in the same grouping, over the same two constants: no law of arithmetic is needed to join
  them, and so no entry needs to be finite.

  Distance.lean states that expression as one function of the two arrays; RefDist.lean reads the reference's stages
  down to it; Payload.lean reads a tile's stored value at an entry, Norms.lean the host's columns of norms, and
  Whole.lean carries tiles to the whole matrix.  Here: the three programs run and keep their arguments, the
  idealization changed no operation, and both idealized runs end at that one function of arguments that agree.
-/
import proofs.«118148_j20658792694341_1_alg».proof.Defs
import proofs.«118148_j20658792694341_1_alg».proof.Proof.Gen.Kernel
import proofs.«118148_j20658792694341_1_alg».proof.Proof.Gen.Kernel.Skeleton
import proofs.«118148_j20658792694341_1_alg».proof.Proof.Gen.Kernel.Launch
import proofs.«118148_j20658792694341_1_alg».proof.Proof.Gen.Kernel.Points
import proofs.«118148_j20658792694341_1_alg».proof.Proof.Gen.Kernel.Frame
import proofs.«118148_j20658792694341_1_alg».proof.Proof.Gen.KernelIdeal
import proofs.«118148_j20658792694341_1_alg».proof.Proof.Gen.KernelIdeal.Skeleton
import proofs.«118148_j20658792694341_1_alg».proof.Proof.Gen.KernelIdeal.Launch
import proofs.«118148_j20658792694341_1_alg».proof.Proof.Gen.KernelIdeal.Points
import proofs.«118148_j20658792694341_1_alg».proof.Proof.Gen.KernelIdeal.Frame
import proofs.«118148_j20658792694341_1_alg».proof.Proof.Gen.ReferenceIdeal
import proofs.«118148_j20658792694341_1_alg».proof.Proof.Gen.Pre_finite_inputs
import proofs.«118148_j20658792694341_1_alg».proof.Proof.Gen.KernelIdeal.Value
import proofs.«118148_j20658792694341_1_alg».proof.Proof.Gen.ReferenceIdeal.Run
import proofs.«118148_j20658792694341_1_alg».proof.Proof.Gen.ReferenceIdeal.Read
import proofs.«118148_j20658792694341_1_alg».proof.Proof.Distance
import proofs.«118148_j20658792694341_1_alg».proof.Proof.RefDist
import proofs.«118148_j20658792694341_1_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both idealized programs end with the distance matrix of their arguments, which agree. -/
theorem algebraic : Cert.algebraic_KernelIdeal_ReferenceIdeal := by
  intro m ρ m' ρ' _ hagree
  refine ⟨fun c => Cert.PairDist.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
